-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_arg5 : FVec F S16x1024 .f32) (main_arg6 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  main_v33

def fn {F : FTy → Type} [FloatOps F] (main_arg0 : FVec F S4x4096x1024 .f32) (main_arg1 : FVec F S3072x1024 .f32) (main_arg2 : FVec F S3072 .f32) (main_arg3 : FVec F S16x1024 .f32) (main_arg4 : FVec F S1024x16 .f32) (main_arg5 : FVec F S16x1024 .f32) (main_arg6 : FVec F S1024x16 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_v13 main_v16
-- ==== Kernel.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S16384x1024 : Shape := ⟨2, ![16384, 1024]⟩
abbrev S1024x3072 : Shape := ⟨2, ![1024, 3072]⟩
abbrev S1x3072 : Shape := ⟨2, ![1, 3072]⟩
abbrev S16384x3072 : Shape := ⟨2, ![16384, 3072]⟩
abbrev S256x1024 : Shape := ⟨2, ![256, 1024]⟩
abbrev S256x3072 : Shape := ⟨2, ![256, 3072]⟩
abbrev S256x16 : Shape := ⟨2, ![256, 16]⟩
abbrev S4x4096x3072 : Shape := ⟨3, ![4, 4096, 3072]⟩

abbrev nBuf : Space → Nat
  | .hbm => 21
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S16384x1024, .f32⟩
  | .hbm, ⟨8, _⟩ => ⟨S1024x3072, .f32⟩
  | .hbm, ⟨9, _⟩ => ⟨S1024x3072, .bf16⟩
  | .hbm, ⟨10, _⟩ => ⟨S1x3072, .f32⟩
  | .hbm, ⟨11, _⟩ => ⟨S1024x16, .f32⟩
  | .hbm, ⟨12, _⟩ => ⟨S1024x16, .bf16⟩
  | .hbm, ⟨13, _⟩ => ⟨S16x1024, .f32⟩
  | .hbm, ⟨14, _⟩ => ⟨S16x1024, .bf16⟩
  | .hbm, ⟨15, _⟩ => ⟨S1024x16, .f32⟩
  | .hbm, ⟨16, _⟩ => ⟨S1024x16, .bf16⟩
  | .hbm, ⟨17, _⟩ => ⟨S16x1024, .f32⟩
  | .hbm, ⟨18, _⟩ => ⟨S16x1024, .bf16⟩
  | .hbm, ⟨19, _⟩ => ⟨S16384x3072, .f32⟩
  | .hbm, ⟨20, _⟩ => ⟨S4x4096x3072, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S1x3072, .f32⟩
  | .local _ .vmem, ⟨4, _⟩ => ⟨S1024x16, .bf16⟩
  | .local _ .vmem, ⟨5, _⟩ => ⟨S16x1024, .bf16⟩
  | .local _ .vmem, ⟨6, _⟩ => ⟨S1024x16, .bf16⟩
  | .local _ .vmem, ⟨7, _⟩ => ⟨S16x1024, .bf16⟩
  | .local _ .vmem, ⟨8, _⟩ => ⟨S256x3072, .f32⟩
  | .local _ .vmem, ⟨9, _⟩ => ⟨S256x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x1024_S16384x1024 : S4x4096x1024.ShapeCasts S16384x1024
  transposes_S3072x1024_S1024x3072_1_0 : S3072x1024.Transposes [1, 0] S1024x3072
  bitsLt_bf16_f32 : FTy.bits .bf16 < FTy.bits .f32
  shapeCasts_S3072_S1x3072 : S3072.ShapeCasts S1x3072
  transposes_S16x1024_S1024x16_1_0 : S16x1024.Transposes [1, 0] S1024x16
  transposes_S1024x16_S16x1024_1_0 : S1024x16.Transposes [1, 0] S16x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  concatenates_S256x1024_S256x1024_S256x1024_S256x3072_d1 : Shape.Concatenates [S256x1024, S256x1024, S256x1024] S256x3072 1
  inb_S256x3072_S256x3072_0_0 : ∀ a, (![0, 0] : Fin 2 → Nat) a + S256x3072.size a ≤ S256x3072.size a
  h_S256x3072 : 0 < S256x3072.numel
  shapeCasts_S16384x3072_S4x4096x3072 : S16384x3072.ShapeCasts S4x4096x3072
  dot_S256x1024_S1024x3072_S256x3072_1_0_0_1_n_n_wf : DotDims.WF S256x1024 S1024x3072 S256x3072 [1] [0] [0] [1] [] []
  dot_S256x1024_S1024x16_S256x16_1_0_0_1_n_n_wf : DotDims.WF S256x1024 S1024x16 S256x16 [1] [0] [0] [1] [] []
  dot_S256x16_S16x1024_S256x1024_1_0_0_1_n_n_wf : DotDims.WF S256x16 S16x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S1024x16.size a
  hwx0_3 : ∀ i : grid0.Coords, EltTy.bits .bf16 = 32 ∨ (Rect.block (s := S1024x16) S1024x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x1024.size a
  hwx0_4 : ∀ i : grid0.Coords, EltTy.bits .bf16 = 32 ∨ (Rect.block (s := S16x1024) S16x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S1024x16.size a
  hwx0_5 : ∀ i : grid0.Coords, EltTy.bits .bf16 = 32 ∨ (Rect.block (s := S1024x16) S1024x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1024.size a ≤ S16x1024.size a
  hwx0_6 : ∀ i : grid0.Coords, EltTy.bits .bf16 = 32 ∨ (Rect.block (s := S16x1024) S16x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x3072.size a ≤ S16384x3072.size a
  hwx0_7 : ∀ i : grid0.Coords, EltTy.bits .f32 = 32 ∨ (Rect.block (s := S16384x3072) S256x3072.size (cc0_transform_7 i) (hinb0_7 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x16_S256x16_1_0_0_1_n_n : DotDims S256x1024 S1024x16 S256x16 where
  lhsContracting := [1]
  rhsContracting := [0]
  lhsNonContracting := [0]
  rhsNonContracting := [1]
  lhsBatch := []
  rhsBatch := []
  wf := dot_S256x1024_S1024x16_S256x16_1_0_0_1_n_n_wf
def dot_S256x16_S16x1024_S256x1024_1_0_0_1_n_n : DotDims S256x16 S16x1024 S256x1024 where
  lhsContracting := [1]
  rhsContracting := [0]
  lhsNonContracting := [0]
  rhsNonContracting := [1]
  lhsBatch := []
  rhsBatch := []
  wf := dot_S256x16_S16x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S16x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S16x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S256x3072.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S4x4096x3072 : Shape := ⟨3, ![4, 4096, 3072]⟩
abbrev S1x1x3072 : Shape := ⟨3, ![1, 1, 3072]⟩
abbrev S4x4096x16 : Shape := ⟨3, ![4, 4096, 16]⟩
abbrev S_ : Shape := ⟨0, ![]⟩
abbrev S1 : Shape := ⟨1, ![1]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S4x4096x3072, .f32⟩
  | .hbm, ⟨8, _⟩ => ⟨S1x1x3072, .f32⟩
  | .hbm, ⟨9, _⟩ => ⟨S4x4096x3072, .f32⟩
  | .hbm, ⟨10, _⟩ => ⟨S4x4096x3072, .f32⟩
  | .hbm, ⟨11, _⟩ => ⟨S4x4096x16, .f32⟩
  | .hbm, ⟨12, _⟩ => ⟨S4x4096x1024, .f32⟩
  | .hbm, ⟨13, _⟩ => ⟨S4x4096x16, .f32⟩
  | .hbm, ⟨14, _⟩ => ⟨S4x4096x1024, .f32⟩
  | .hbm, ⟨15, _⟩ => ⟨S_, .i32⟩
  | .hbm, ⟨16, _⟩ => ⟨S1, .i32⟩
  | .hbm, ⟨17, _⟩ => ⟨S4x4096x3072, .f32⟩
  | .hbm, ⟨18, _⟩ => ⟨S_, .i32⟩
  | .hbm, ⟨19, _⟩ => ⟨S1, .i32⟩
  | .hbm, ⟨20, _⟩ => ⟨S4x4096x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  bcast_S_S1 : S_.BroadcastsInDim S1 (![] : Fin 0 → Fin S1.rank)
  dot_S4x4096x1024_S3072x1024_S4x4096x3072_2_1_01_0_n_n_wf : DotDims.WF S4x4096x1024 S3072x1024 S4x4096x3072 [2] [1] [0, 1] [0] [] []
  dot_S4x4096x1024_S16x1024_S4x4096x16_2_1_01_0_n_n_wf : DotDims.WF S4x4096x1024 S16x1024 S4x4096x16 [2] [1] [0, 1] [0] [] []
  dot_S4x4096x16_S1024x16_S4x4096x1024_2_1_01_0_n_n_wf : DotDims.WF S4x4096x16 S1024x16 S4x4096x1024 [2] [1] [0, 1] [0] [] []
  scatter_S4x4096x3072_S1_S4x4096x1024_012_n_2_0_wf : ScatterDims.WF S4x4096x3072 S1 S4x4096x1024 [0, 1, 2] [] [2] 0

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x1024_S16x1024_S4x4096x16_2_1_01_0_n_n : DotDims S4x4096x1024 S16x1024 S4x4096x16 where
  lhsContracting := [2]
  rhsContracting := [1]
  lhsNonContracting := [0, 1]
  rhsNonContracting := [0]
  lhsBatch := []
  rhsBatch := []
  wf := dot_S4x4096x1024_S16x1024_S4x4096x16_2_1_01_0_n_n_wf
def dot_S4x4096x16_S1024x16_S4x4096x1024_2_1_01_0_n_n : DotDims S4x4096x16 S1024x16 S4x4096x1024 where
  lhsContracting := [2]
  rhsContracting := [1]
  lhsNonContracting := [0, 1]
  rhsNonContracting := [0]
  lhsBatch := []
  rhsBatch := []
  wf := dot_S4x4096x16_S1024x16_S4x4096x1024_2_1_01_0_n_n_wf
def scatter_S4x4096x3072_S1_S4x4096x1024_012_n_2_0 : ScatterDims S4x4096x3072 S1 S4x4096x1024 where
  updateWindowDims := [0, 1, 2]
  insertedWindowDims := []
  scatterDimsToOperandDims := [2]
  indexVectorDim := 0
  wf := scatter_S4x4096x3072_S1_S4x4096x1024_012_n_2_0_wf

class Facts : Prop extends Facts₀ where

variable [Facts]
-- ==== Proof.LibScatter.lean ====
/-
  A host scatter read at one index of its result.

  `Host.scatter d f x idx upd` is a left fold over all update indices in row-major order: the update index `j` whose
  result index `d.resultIdx? j idx` is `some i` replaces the element at `i` by `f` of it and of the update's element at
  `j`; an update index that lands outside the operand changes nothing. When exactly one update index lands on `i`, the
  result at `i` is therefore `f (x i) (upd j)` for that one `j`; when none does, it is `x i`. Both statements hold for
  any body `f`, any shapes and any dimension numbers: they only use that every update index is met once by the fold.
-/
import Idealize.ShloMosaic.PureOps.ShapeOps

namespace Idealize.ShloMosaic.ScatterRead

open Idealize.ShloMosaic

section Fold
variable {ι β α : Type} (ri : β → Option ι) (f : α → α → α) (u : β → α) (step : (ι → α) → β → ι → α)

/-- A fold whose step leaves alone every element its update does not land on: an element no update of the list lands
    on keeps its value. -/
theorem foldl_miss (hne : ∀ r n i, ri n ≠ some i → step r n i = r i)
    (l : List β) (x : ι → α) (i : ι) (h : ∀ n ∈ l, ri n ≠ some i) :
    (l.foldl step x) i = x i := by
  induction l generalizing x with
  | nil => rfl
  | cons a l ih =>
    rw [List.foldl_cons, ih _ (fun n hn => h n (List.mem_cons_of_mem _ hn))]
    exact hne x a i (h a (List.mem_cons_self ..))

/-- If moreover the step combines, by `f`, the element an update lands on with that update: an element exactly one
    update of a duplicate-free list lands on ends at `f` of its value and that update. -/
theorem foldl_hit (hne : ∀ r n i, ri n ≠ some i → step r n i = r i)
    (heq : ∀ r n i, ri n = some i → step r n i = f (r i) (u n))
    (l : List β) (hnd : l.Nodup) (x : ι → α) (i : ι) (n₀ : β) (hn₀ : n₀ ∈ l) (hri : ri n₀ = some i)
    (huniq : ∀ n ∈ l, ri n = some i → n = n₀) :
    (l.foldl step x) i = f (x i) (u n₀) := by
  induction l generalizing x with
  | nil => exact absurd hn₀ (List.not_mem_nil)
  | cons a l ih =>
    rw [List.foldl_cons]
    have hnd' := List.nodup_cons.1 hnd
    by_cases ha : a = n₀
    · subst ha
      rw [foldl_miss ri step hne l _ i (fun n hn e => hnd'.1 (huniq n (List.mem_cons_of_mem _ hn) e ▸ hn))]
      exact heq x a i hri
    · have hmem : n₀ ∈ l := (List.mem_cons.1 hn₀).resolve_left (fun e => ha e.symm)
      rw [ih hnd'.2 _ hmem (fun n hn => huniq n (List.mem_cons_of_mem _ hn))]
      rw [hne x a i (fun e => ha (huniq a (List.mem_cons_self ..) e))]

end Fold

variable {s si u : Shape} {w : Nat} {α : Type}

/-- The scatter's step leaves alone the elements its update does not land on. -/
private theorem step_ne (d : ScatterDims s si u) (f : α → α → α) (idx : IVec si w) (upd : u.Idx → α)
    (r : s.Idx → α) (n : Fin u.numel) (i : s.Idx) (h : d.resultIdx? (u.rowMajor.symm n) idx ≠ some i) :
    (match d.resultIdx? (u.rowMajor.symm n) idx with
      | some i₀ => fun i' => if i' = i₀ then f (r i₀) (upd (u.rowMajor.symm n)) else r i'
      | none => r) i = r i := by
  generalize d.resultIdx? (u.rowMajor.symm n) idx = o at h
  cases o with
  | none => rfl
  | some j => exact if_neg (fun e => h (by rw [e]))

/-- The scatter's step at the element its update lands on. -/
private theorem step_eq (d : ScatterDims s si u) (f : α → α → α) (idx : IVec si w) (upd : u.Idx → α)
    (r : s.Idx → α) (n : Fin u.numel) (i : s.Idx) (h : d.resultIdx? (u.rowMajor.symm n) idx = some i) :
    (match d.resultIdx? (u.rowMajor.symm n) idx with
      | some i₀ => fun i' => if i' = i₀ then f (r i₀) (upd (u.rowMajor.symm n)) else r i'
      | none => r) i = f (r i) (upd (u.rowMajor.symm n)) := by
  generalize d.resultIdx? (u.rowMajor.symm n) idx = o at h
  cases o with
  | none => exact absurd h (by simp)
  | some j =>
    have e : j = i := Option.some.inj h
    subst e
    exact if_pos rfl

/-- The scatter's result at an index exactly one update index lands on. -/
theorem scatter_apply_hit (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  unfold Host.scatter
  refine (foldl_hit (fun n => d.resultIdx? (u.rowMajor.symm n) idx) f (fun n => upd (u.rowMajor.symm n)) _
    (fun r n i' h => step_ne d f idx upd r n i' h) (fun r n i' h => step_eq d f idx upd r n i' h)
    (List.finRange u.numel) (List.nodup_finRange _) x i (u.rowMajor j) (List.mem_finRange _)
    (by show d.resultIdx? (u.rowMajor.symm (u.rowMajor j)) idx = some i; rw [Equiv.symm_apply_apply]; exact hj)
    (fun n _ hn => by rw [← huniq _ hn, Equiv.apply_symm_apply])).trans ?_
  show f (x i) (upd (u.rowMajor.symm (u.rowMajor j))) = _
  rw [Equiv.symm_apply_apply]

/-- The scatter's result at an index no update index lands on. -/
theorem scatter_apply_miss (d : ScatterDims s si u) (f : α → α → α) (x : s.Idx → α) (idx : IVec si w) (upd : u.Idx → α)
    (i : s.Idx) (hmiss : ∀ j', d.resultIdx? j' idx ≠ some i) :
    Host.scatter d f x idx upd i = x i := by
  unfold Host.scatter
  exact foldl_miss (fun n => d.resultIdx? (u.rowMajor.symm n) idx) _
    (fun r n i' h => step_ne d f idx upd r n i' h) (List.finRange u.numel) x i (fun n _ => hmiss _)

end Idealize.ShloMosaic.ScatterRead
-- ==== Proof.RefScatter.lean ====
/-
  The reference's two row updates `qkv.at[:, :, off : off + 1024].add(u)` read at an index.

  Each is a scatter with ONE scatter index: every update index `j = (b, s, e)` lands on `(b, s, e + off)`, where `off` is the
  start the index tensor holds for the last axis (0 for the first third, 2048 for the last). These landing indices are
  pairwise distinct and all inside the operand, so an operand element in columns `[off, off + 1024)` meets exactly one
  update element, and an element outside them meets none.
-/
import proofs.«154420_j47656957116918_1_alg».proof.ReferenceIdeal
import proofs.«154420_j47656957116918_1_alg».proof.Proof.LibScatter
import Idealize.ShloMosaic.Lib.ValueIdx

noncomputable section

namespace Cert.ReferenceIdeal.RefScatter

open Cert.ReferenceIdeal Idealize.ShloMosaic Idealize.ShloMosaic.ValueIdx

variable [Facts]

/-! The window coordinate of an update index on each operand axis is its own coordinate (no axis is inserted), and the
    window starts at the index tensor's one word on the last axis and at zero on the other two. -/

theorem window_0 (j : S4x4096x1024.Idx) :
    scatter_S4x4096x3072_S1_S4x4096x1024_012_n_2_0.window j 0 = (j 0).val := rfl
theorem window_1 (j : S4x4096x1024.Idx) :
    scatter_S4x4096x3072_S1_S4x4096x1024_012_n_2_0.window j 1 = (j 1).val := rfl
theorem window_2 (j : S4x4096x1024.Idx) :
    scatter_S4x4096x3072_S1_S4x4096x1024_012_n_2_0.window j 2 = (j 2).val := rfl
theorem start_0 (idx : IVec S1 32) (j : S4x4096x1024.Idx) :
    scatter_S4x4096x3072_S1_S4x4096x1024_012_n_2_0.start j idx 0 = 0 := rfl
theorem start_1 (idx : IVec S1 32) (j : S4x4096x1024.Idx) :
    scatter_S4x4096x3072_S1_S4x4096x1024_012_n_2_0.start j idx 1 = 0 := rfl
theorem start_2 (idx : IVec S1 32) (j : S4x4096x1024.Idx) :
    scatter_S4x4096x3072_S1_S4x4096x1024_012_n_2_0.start j idx 2 = (idx (ix1 0)).toInt := by
  have h : (2 : Fin S4x4096x3072.rank) ∈ scatter_S4x4096x3072_S1_S4x4096x1024_012_n_2_0.scatterDimsToOperandDims :=
    List.mem_singleton.mpr rfl
  unfold ScatterDims.start
  rw [dif_pos h]
  congr 2
  funext a; match a with | ⟨0, _⟩ => rfl

/-- Update index `(b, s, e)` lands on `(b, s, e + off)`, inside the operand. -/
theorem resultIdx_eq (off : Nat) (hoff : off + 1024 ≤ 3072) (idx : IVec S1 32) (hidx : (idx (ix1 0)).toInt = (off : Int))
    (j : S4x4096x1024.Idx) :
    scatter_S4x4096x3072_S1_S4x4096x1024_012_n_2_0.resultIdx? j idx
      = some (ix3 (j 0) (j 1) ⟨(j 2).val + off, by have : (j 2).val < 1024 := (j 2).isLt; omega⟩) := by
  have h0 : (j 0).val < 4 := (j 0).isLt
  have h1 : (j 1).val < 4096 := (j 1).isLt
  have h2 : (j 2).val < 1024 := (j 2).isLt
  have hb : ∀ a, 0 ≤ scatter_S4x4096x3072_S1_S4x4096x1024_012_n_2_0.start j idx a + scatter_S4x4096x3072_S1_S4x4096x1024_012_n_2_0.window j a
      ∧ scatter_S4x4096x3072_S1_S4x4096x1024_012_n_2_0.start j idx a + scatter_S4x4096x3072_S1_S4x4096x1024_012_n_2_0.window j a < S4x4096x3072.size a := by
    intro a
    match a with
    | ⟨0, _⟩ =>
      show 0 ≤ scatter_S4x4096x3072_S1_S4x4096x1024_012_n_2_0.start j idx 0 + ((scatter_S4x4096x3072_S1_S4x4096x1024_012_n_2_0.window j 0 : Nat) : Int)
        ∧ scatter_S4x4096x3072_S1_S4x4096x1024_012_n_2_0.start j idx 0 + ((scatter_S4x4096x3072_S1_S4x4096x1024_012_n_2_0.window j 0 : Nat) : Int) < ((4 : Nat) : Int)
      rw [start_0, window_0]; omega
    | ⟨1, _⟩ =>
      show 0 ≤ scatter_S4x4096x3072_S1_S4x4096x1024_012_n_2_0.start j idx 1 + ((scatter_S4x4096x3072_S1_S4x4096x1024_012_n_2_0.window j 1 : Nat) : Int)
        ∧ scatter_S4x4096x3072_S1_S4x4096x1024_012_n_2_0.start j idx 1 + ((scatter_S4x4096x3072_S1_S4x4096x1024_012_n_2_0.window j 1 : Nat) : Int) < ((4096 : Nat) : Int)
      rw [start_1, window_1]; omega
    | ⟨2, _⟩ =>
      show 0 ≤ scatter_S4x4096x3072_S1_S4x4096x1024_012_n_2_0.start j idx 2 + ((scatter_S4x4096x3072_S1_S4x4096x1024_012_n_2_0.window j 2 : Nat) : Int)
        ∧ scatter_S4x4096x3072_S1_S4x4096x1024_012_n_2_0.start j idx 2 + ((scatter_S4x4096x3072_S1_S4x4096x1024_012_n_2_0.window j 2 : Nat) : Int) < ((3072 : Nat) : Int)
      rw [start_2, window_2, hidx]; omega
  rw [ScatterDims.resultIdx?, dif_pos hb]
  congr 1
  funext a
  apply Fin.ext
  match a with
  | ⟨0, _⟩ =>
    show (scatter_S4x4096x3072_S1_S4x4096x1024_012_n_2_0.start j idx 0 + ((scatter_S4x4096x3072_S1_S4x4096x1024_012_n_2_0.window j 0 : Nat) : Int)).toNat = (j 0).val
    rw [start_0, window_0]; omega
  | ⟨1, _⟩ =>
    show (scatter_S4x4096x3072_S1_S4x4096x1024_012_n_2_0.start j idx 1 + ((scatter_S4x4096x3072_S1_S4x4096x1024_012_n_2_0.window j 1 : Nat) : Int)).toNat = (j 1).val
    rw [start_1, window_1]; omega
  | ⟨2, _⟩ =>
    show (scatter_S4x4096x3072_S1_S4x4096x1024_012_n_2_0.start j idx 2 + ((scatter_S4x4096x3072_S1_S4x4096x1024_012_n_2_0.window j 2 : Nat) : Int)).toNat = (j 2).val + off
    rw [start_2, window_2, hidx]; omega

/-- The row update read at `i`: inside the columns `[off, off + 1024)` the body applied to the operand's element and the
    update's element `off` columns to the left; outside them the operand's element. -/
theorem scatter_window_apply {α : Type} (f : α → α → α) (off : Nat) (hoff : off + 1024 ≤ 3072) (x : S4x4096x3072.Idx → α)
    (idx : IVec S1 32) (hidx : (idx (ix1 0)).toInt = (off : Int)) (upd : S4x4096x1024.Idx → α) (i : S4x4096x3072.Idx) :
    Host.scatter scatter_S4x4096x3072_S1_S4x4096x1024_012_n_2_0 f x idx upd i
      = if h : off ≤ (i 2).val ∧ (i 2).val < off + 1024 then f (x i) (upd (ix3 (i 0) (i 1) ⟨(i 2).val - off, by omega⟩)) else x i := by
  by_cases h : off ≤ (i 2).val ∧ (i 2).val < off + 1024
  · rw [dif_pos h]
    refine ScatterRead.scatter_apply_hit _ f x idx upd i _ ?_ ?_
    · rw [resultIdx_eq off hoff idx hidx]
      congr 1
      funext a
      apply Fin.ext
      match a with
      | ⟨0, _⟩ => rfl
      | ⟨1, _⟩ => rfl
      | ⟨2, _⟩ => show (i 2).val - off + off = (i 2).val; omega
    · intro j' hj'
      rw [resultIdx_eq off hoff idx hidx] at hj'
      have e := Option.some.inj hj'
      funext a
      apply Fin.ext
      match a with
      | ⟨0, _⟩ => exact congrArg (fun z : S4x4096x3072.Idx => (z 0).val) e
      | ⟨1, _⟩ => exact congrArg (fun z : S4x4096x3072.Idx => (z 1).val) e
      | ⟨2, _⟩ =>
        have e2 : (j' 2).val + off = (i 2).val := congrArg (fun z : S4x4096x3072.Idx => (z 2).val) e
        show (j' 2).val = (i 2).val - off
        omega
  · rw [dif_neg h]
    refine ScatterRead.scatter_apply_miss _ f x idx upd i (fun j' hj' => h ?_)
    rw [resultIdx_eq off hoff idx hidx] at hj'
    have e := Option.some.inj hj'
    have e2 : (j' 2).val + off = (i 2).val := congrArg (fun z : S4x4096x3072.Idx => (z 2).val) e
    have h2 : (j' 2).val < 1024 := (j' 2).isLt
    omega

end Cert.ReferenceIdeal.RefScatter

end
-- ==== Proof.Spec.lean ====
/-
  One output row of the projection with two low-rank corrections, as a function of one input row.

  For an input row `xr` (length 1024), the dense weights `wf d e`, the bias `bf e`, and two pairs of low-rank factors
  `(aq, bq)` and `(av, bv)` of rank 16, column `e` of the output row (length 3072) is
    `(∑ d, xr d · wf d e) + bf e`
  to which the first third of the columns adds `∑ r, (∑ d, xr d · aq d r) · bq r e` and the last third adds
  `∑ r, (∑ d, xr d · av d r) · bv r (e - 2048)`; the middle third gets nothing more. The sums, the products and the
  order of the additions are written as both programs compute them, so no law of the extended reals beyond
  reindexing of sums is needed to compare either program with this function.
-/
import Idealize.ShloMosaic.PureOps.Ideal
import Idealize.ShloMosaic.Lib.ValueIdx

noncomputable section

namespace Cert.Spec

/-- The dense part of column `e`: the row against the weights, plus the bias. -/
def dense (xr : Fin 1024 → EReal) (wf : Fin 1024 → Fin 3072 → EReal) (bf : Fin 3072 → EReal) (e : Fin 3072) : EReal :=
  (∑ d : Fin 1024, xr d * wf d e) + bf e

/-- The low-rank part at column `e` of a third: the row projected to rank 16 by `a`, then expanded by `b`. -/
def lowRank (xr : Fin 1024 → EReal) (a : Fin 1024 → Fin 16 → EReal) (b : Fin 16 → Fin 1024 → EReal) (e : Fin 1024) : EReal :=
  ∑ r : Fin 16, (∑ d : Fin 1024, xr d * a d r) * b r e

/-- Column `e` of the output row. -/
def row (xr : Fin 1024 → EReal) (wf : Fin 1024 → Fin 3072 → EReal) (bf : Fin 3072 → EReal)
    (aq : Fin 1024 → Fin 16 → EReal) (bq : Fin 16 → Fin 1024 → EReal)
    (av : Fin 1024 → Fin 16 → EReal) (bv : Fin 16 → Fin 1024 → EReal) (e : Fin 3072) : EReal :=
  if h : e.val < 1024 then dense xr wf bf e + lowRank xr aq bq ⟨e.val, h⟩
  else if h2 : 2048 ≤ e.val then dense xr wf bf e + lowRank xr av bv ⟨e.val - 2048, by have := e.isLt; omega⟩
  else dense xr wf bf e

theorem row_first (xr wf bf aq bq av bv) (e : Fin 3072) (h : e.val < 1024) :
    row xr wf bf aq bq av bv e = dense xr wf bf e + lowRank xr aq bq ⟨e.val, h⟩ := dif_pos h

theorem row_middle (xr wf bf aq bq av bv) (e : Fin 3072) (h : ¬ e.val < 1024) (h2 : ¬ 2048 ≤ e.val) :
    row xr wf bf aq bq av bv e = dense xr wf bf e := by
  unfold row; rw [dif_neg h, dif_neg h2]

theorem row_last (xr wf bf aq bq av bv) (e : Fin 3072) (h2 : 2048 ≤ e.val) :
    row xr wf bf aq bq av bv e = dense xr wf bf e + lowRank xr av bv ⟨e.val - 2048, by have := e.isLt; omega⟩ := by
  unfold row; rw [dif_neg (by omega), dif_pos h2]

open Idealize.ShloMosaic Idealize.ShloMosaic.ValueIdx in
/-- The whole result, `[4, 4096, 3072]`, of the seven arguments as the reference names them: `x [4, 4096, 1024]`, the dense
    weights `W [3072, 1024]` and bias `B [3072]`, and the factors `Aq, Av [16, 1024]`, `Bq, Bv [1024, 16]`. Entry `(b, s, e)` is
    column `e` of the output row of the input row `x[b, s, :]`, every weight matrix read transposed. -/
def G (X : (⟨3, ![4, 4096, 1024]⟩ : Shape).Idx → EReal) (W : (⟨2, ![3072, 1024]⟩ : Shape).Idx → EReal)
    (B : (⟨1, ![3072]⟩ : Shape).Idx → EReal)
    (Aq : (⟨2, ![16, 1024]⟩ : Shape).Idx → EReal) (Bq : (⟨2, ![1024, 16]⟩ : Shape).Idx → EReal)
    (Av : (⟨2, ![16, 1024]⟩ : Shape).Idx → EReal) (Bv : (⟨2, ![1024, 16]⟩ : Shape).Idx → EReal) :
    (⟨3, ![4, 4096, 3072]⟩ : Shape).Idx → EReal := fun i =>
  row (fun d => X (ix3 (i 0) (i 1) d)) (fun d e => W (ix2 e d)) (fun e => B (ix1 e))
    (fun d r => Aq (ix2 r d)) (fun r e => Bq (ix2 e r)) (fun d r => Av (ix2 r d)) (fun r e => Bv (ix2 e r)) (i 2)

end Cert.Spec

end
-- ==== Proof.RefValue.lean ====
/-
  The reference's result is the function `Cert.Spec.G` of its arguments.

  The reference computes `x · Wᵀ + B` as one contraction over the last axis of `x` and the last axis of `W`, the two
  low-rank corrections as two contractions each, and adds the corrections into the first and the last third of the
  columns by two row updates. Read at an index `(b, s, e)`: the contraction is the sum over `d` of `x[b, s, d] · W[e, d]`,
  the bias is `B[e]`, a correction is the sum over `r` of `(∑ d, x[b, s, d] · A[r, d]) · Bf[e', r]`, and each row update
  adds its correction exactly on its own third. That is `Cert.Spec.row` at column `e`, term by term.
-/
import proofs.«154420_j47656957116918_1_alg».proof.Proof.Gen.ReferenceIdeal.Run
import proofs.«154420_j47656957116918_1_alg».proof.Proof.Gen.ReferenceIdeal.Read
import proofs.«154420_j47656957116918_1_alg».proof.Proof.RefScatter
import proofs.«154420_j47656957116918_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (x0 : S4x4096x1024.Idx → EReal) (x1 : S3072x1024.Idx → EReal) (x2 : S3072.Idx → EReal)
  (x3 : S16x1024.Idx → EReal) (x4 : S1024x16.Idx → EReal) (x5 : S16x1024.Idx → EReal) (x6 : S1024x16.Idx → EReal)

/-- The dense stage at an index. -/
theorem dense_apply (i : S4x4096x3072.Idx) :
    val_main_v3 (F := Ideal) x0 x1 x2 i
      = Cert.Spec.dense (fun d => x0 (ix3 (i 0) (i 1) d)) (fun d e => x1 (ix2 e d)) (fun e => x2 (ix1 e)) (i 2) := by
  rw [val_main_v3_apply, val_main_v0_apply, val_main_v2_apply, val_main_v1_apply]
  have el : ∀ k, lidx_main_v0 i k = ix3 (i 0) (i 1) k := fun k =>
    funext fun a => Fin.ext (by match a with | ⟨0, _⟩ => rfl | ⟨1, _⟩ => rfl | ⟨2, _⟩ => rfl)
  have er : ∀ k, ridx_main_v0 i k = ix2 (i 2) k := fun k =>
    funext fun a => Fin.ext (by match a with | ⟨0, _⟩ => rfl | ⟨1, _⟩ => rfl)
  have eb : idx_main_v1 (idx_main_v2 i) = ix1 (i 2) :=
    funext fun a => Fin.ext (by match a with | ⟨0, _⟩ => rfl)
  simp only [el, er, eb]
  rfl

/-- A low-rank stage at an index: the projection to rank 16 contracted with the expanding factor. -/
theorem lowq_apply (j : S4x4096x1024.Idx) :
    val_main_v5 (F := Ideal) x0 x3 x4 j
      = Cert.Spec.lowRank (fun d => x0 (ix3 (j 0) (j 1) d)) (fun d r => x3 (ix2 r d)) (fun r e => x4 (ix2 e r)) (j 2) := by
  rw [val_main_v5_apply]
  unfold Cert.Spec.lowRank
  refine Finset.sum_congr rfl fun r _ => ?_
  rw [val_main_v4_apply]
  have el : ∀ k, lidx_main_v4 (lidx_main_v5 j r) k = ix3 (j 0) (j 1) k := fun k =>
    funext fun a => Fin.ext (by match a with | ⟨0, _⟩ => rfl | ⟨1, _⟩ => rfl | ⟨2, _⟩ => rfl)
  have er : ∀ k, ridx_main_v4 (lidx_main_v5 j r) k = ix2 r k := fun k =>
    funext fun a => Fin.ext (by match a with | ⟨0, _⟩ => rfl | ⟨1, _⟩ => rfl)
  have e4 : ridx_main_v5 j r = ix2 (j 2) r :=
    funext fun a => Fin.ext (by match a with | ⟨0, _⟩ => rfl | ⟨1, _⟩ => rfl)
  simp only [el, er, e4]
  rfl

theorem lowv_apply (j : S4x4096x1024.Idx) :
    val_main_v7 (F := Ideal) x0 x5 x6 j
      = Cert.Spec.lowRank (fun d => x0 (ix3 (j 0) (j 1) d)) (fun d r => x5 (ix2 r d)) (fun r e => x6 (ix2 e r)) (j 2) := by
  rw [val_main_v7_apply]
  unfold Cert.Spec.lowRank
  refine Finset.sum_congr rfl fun r _ => ?_
  rw [val_main_v6_apply]
  have el : ∀ k, lidx_main_v6 (lidx_main_v7 j r) k = ix3 (j 0) (j 1) k := fun k =>
    funext fun a => Fin.ext (by match a with | ⟨0, _⟩ => rfl | ⟨1, _⟩ => rfl | ⟨2, _⟩ => rfl)
  have er : ∀ k, ridx_main_v6 (lidx_main_v7 j r) k = ix2 r k := fun k =>
    funext fun a => Fin.ext (by match a with | ⟨0, _⟩ => rfl | ⟨1, _⟩ => rfl)
  have e4 : ridx_main_v7 j r = ix2 (j 2) r :=
    funext fun a => Fin.ext (by match a with | ⟨0, _⟩ => rfl | ⟨1, _⟩ => rfl)
  simp only [el, er, e4]
  rfl

/-- The two index tensors hold the starts 0 and 2048. -/
theorem start_q : ((val_main_v8 (F := Ideal)) (ix1 0)).toInt = ((0 : Nat) : Int) := by
  rw [val_main_v8_apply, val_main_c_apply]; rfl
theorem start_v : ((val_main_v10 (F := Ideal)) (ix1 0)).toInt = ((2048 : Nat) : Int) := by
  rw [val_main_v10_apply, val_main_c_0_apply]; rfl

/-- The reference's result, index by index, is `Cert.Spec.G` of the arguments. -/
theorem result_eq : val_main_v11 (F := Ideal) x0 x1 x2 x3 x4 x5 x6 = Cert.Spec.G x0 x1 x2 x3 x4 x5 x6 := by
  funext i
  have hi : (i 2).val < 3072 := (i 2).isLt
  unfold val_main_v11 val_main_v9
  rw [RefScatter.scatter_window_apply FloatOps.addf 2048 (by omega) _ _ start_v _ i,
    RefScatter.scatter_window_apply FloatOps.addf 0 (by omega) _ _ start_q _ i]
  unfold Cert.Spec.G
  by_cases h1 : (i 2).val < 1024
  · rw [dif_neg (by omega), dif_pos (by omega), Cert.Spec.row_first _ _ _ _ _ _ _ _ h1, dense_apply, lowq_apply]
    rfl
  · by_cases h2 : 2048 ≤ (i 2).val
    · rw [dif_pos (by omega), dif_neg (by omega), Cert.Spec.row_last _ _ _ _ _ _ _ _ h2, dense_apply, lowv_apply]
      rfl
    · rw [dif_neg (by omega), dif_neg (by omega), Cert.Spec.row_middle _ _ _ _ _ _ _ _ h1 h2, dense_apply]

end Cert.ReferenceIdeal.RefValue

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KernelPay.lean ====
/-
  The kernel body's stored value at an index of its block, at the ideal values.

  The body stores one 256 × 3072 value: the concatenation along the columns of three 256 × 1024 pieces cut from
  `x · w + bias` (the input block against the dense weights, a matrix product into a zero accumulator, plus the bias row
  broadcast down the rows), the first piece increased by `(x · aq) · bq` and the last by `(x · av) · bv`. Changes of float
  format are the identity at the ideal values, and each matrix product read at an index is the sum over the contracted
  coordinate. So entry `(p, q)` of the stored value is column `q` of the output row (`Cert.Spec.row`) of row `p` of the
  input block.
-/
import proofs.«154420_j47656957116918_1_alg».proof.Proof.Gen.KernelIdeal.Skeleton
import proofs.«154420_j47656957116918_1_alg».proof.Proof.LibPlainDot
import proofs.«154420_j47656957116918_1_alg».proof.Proof.Spec
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.ValueIdx

/-! The three matrix products of the body, each into the zero accumulator, read at an index. -/

theorem mm_dense (l : FVec Ideal S256x1024 .bf16) (r : FVec Ideal S1024x3072 .bf16) (p : Fin 256) (q : Fin 3072) :
    matmul dot_S256x1024_S1024x3072_S256x3072_1_0_0_1_n_n none l r (constant S256x3072 .f32 0x00000000#32) (ix2 p q)
      = ∑ k : Fin 1024, l (ix2 p k) * r (ix2 k q) :=
  PlainDot.matmul_zero_apply 256 1024 3072 none l r (ix2 p q)

theorem mm_down (l : FVec Ideal S256x1024 .bf16) (r : FVec Ideal S1024x16 .bf16) (p : Fin 256) (q : Fin 16) :
    matmul dot_S256x1024_S1024x16_S256x16_1_0_0_1_n_n none l r (constant S256x16 .f32 0x00000000#32) (ix2 p q)
      = ∑ k : Fin 1024, l (ix2 p k) * r (ix2 k q) :=
  PlainDot.matmul_zero_apply 256 1024 16 none l r (ix2 p q)

theorem mm_up (l : FVec Ideal S256x16 .bf16) (r : FVec Ideal S16x1024 .bf16) (p : Fin 256) (q : Fin 1024) :
    matmul dot_S256x16_S16x1024_S256x1024_1_0_0_1_n_n none l r (constant S256x1024 .f32 0x00000000#32) (ix2 p q)
      = ∑ k : Fin 16, l (ix2 p k) * r (ix2 k q) :=
  PlainDot.matmul_zero_apply 256 16 1024 none l r (ix2 p q)

variable (x0 : Vec Ideal S256x1024 .f32) (w : Vec Ideal S1024x3072 .bf16) (bias : Vec Ideal S1x3072 .f32)
  (a aq av : Vec Ideal S1024x16 .bf16) (b bq bv : Vec Ideal S16x1024 .bf16)

/-- The dense part of the body: the block against the dense weights, plus the bias row broadcast down the rows. -/
def dn : FVec Ideal S256x3072 .f32 :=
  addf (matmul dot_S256x1024_S1024x3072_S256x3072_1_0_0_1_n_n none
      (truncf .bf16 (shapeCast S256x1024 x0 shapeCasts_S256x1024_S256x1024 : FVec Ideal S256x1024 .f32) bitsLt_bf16_f32)
      (shapeCast S1024x3072 w shapeCasts_S1024x3072_S1024x3072 : FVec Ideal S1024x3072 .bf16) (constant S256x3072 .f32 0x00000000#32))
    (broadcastTo S256x3072 (shapeCast S1x3072 bias shapeCasts_S1x3072_S1x3072 : FVec Ideal S1x3072 .f32) broadcasts_S1x3072_S256x3072)

/-- A low-rank part of the body: the block projected to rank 16, then expanded. -/
def lr : FVec Ideal S256x1024 .f32 :=
  matmul dot_S256x16_S16x1024_S256x1024_1_0_0_1_n_n none
    (truncf .bf16 (matmul dot_S256x1024_S1024x16_S256x16_1_0_0_1_n_n none
      (truncf .bf16 (shapeCast S256x1024 x0 shapeCasts_S256x1024_S256x1024 : FVec Ideal S256x1024 .f32) bitsLt_bf16_f32)
      (shapeCast S1024x16 a shapeCasts_S1024x16_S1024x16 : FVec Ideal S1024x16 .bf16) (constant S256x16 .f32 0x00000000#32)) bitsLt_bf16_f32)
    (shapeCast S16x1024 b shapeCasts_S16x1024_S16x1024 : FVec Ideal S16x1024 .bf16) (constant S256x1024 .f32 0x00000000#32)

/-- The stored value is the concatenation of three pieces over those parts. -/
theorem pay_eq : k0_pay1 (F := Ideal) x0 w bias aq bq av bv
    = concatenate S256x3072 1
        [⟨S256x1024, addf (extractStridedSlice S256x1024 ![0, 0] (dn x0 w bias) slices_S256x3072_o0_0_S256x1024) (lr x0 aq bq)⟩,
         ⟨S256x1024, extractStridedSlice S256x1024 ![0, 1024] (dn x0 w bias) slices_S256x3072_o0_1024_S256x1024⟩,
         ⟨S256x1024, addf (extractStridedSlice S256x1024 ![0, 2048] (dn x0 w bias) slices_S256x3072_o0_2048_S256x1024) (lr x0 av bv)⟩]
        concatenates_S256x1024_S256x1024_S256x1024_S256x3072_d1 := rfl

theorem dn_apply (p : Fin 256) (q : Fin 3072) :
    dn x0 w bias (ix2 p q)
      = Cert.Spec.dense (fun d => x0 (ix2 p d)) (fun d e => w (ix2 d e)) (fun e => bias (ix2 0 e)) q := by
  unfold dn Cert.Spec.dense
  rw [addf_apply, mm_dense]
  simp only [shapeCast_self]
  refine congrArg₂ (· + ·) rfl ?_
  exact broadcastTo_apply bias broadcasts_S1x3072_S256x3072 (ix2 p q) (ix2 0 q) (fun a => by
    match a with
    | ⟨0, _⟩ => rfl
    | ⟨1, _⟩ => rfl)

theorem lr_apply (p : Fin 256) (q : Fin 1024) :
    lr x0 a b (ix2 p q)
      = Cert.Spec.lowRank (fun d => x0 (ix2 p d)) (fun d r => a (ix2 d r)) (fun r e => b (ix2 r e)) q := by
  unfold lr Cert.Spec.lowRank
  rw [mm_up]
  refine Finset.sum_congr rfl fun r _ => ?_
  rw [truncf_apply, mm_down]
  simp only [shapeCast_self]
  rfl

/-- A slice of 1024 columns starting at column `off`, read at an index. -/
theorem slice_apply (off : Nat) (y : FVec Ideal S256x3072 .f32) (hs : S256x3072.Slices ![0, off] S256x1024) (p : Fin 256) (q : Fin 1024)
    (hq : off + q.val < 3072) :
    extractStridedSlice S256x1024 ![0, off] y hs (ix2 p q) = y (ix2 p ⟨off + q.val, hq⟩) :=
  extractStridedSlice_apply _ y hs (ix2 p q) (ix2 p ⟨off + q.val, hq⟩) (fun a => by
    match a with
    | ⟨0, _⟩ => show p.val = 0 + p.val; omega
    | ⟨1, _⟩ => rfl)

/-- Three pieces of 1024 columns side by side, read at an index: the piece the column falls in. -/
theorem concat3_apply {α : Type} (y1 y2 y3 : S256x1024.Idx → α) (p : Fin 256) (q : Fin 3072) :
    concatenate S256x3072 1 [⟨S256x1024, y1⟩, ⟨S256x1024, y2⟩, ⟨S256x1024, y3⟩] concatenates_S256x1024_S256x1024_S256x1024_S256x3072_d1 (ix2 p q)
      = if h1 : q.val < 1024 then y1 (ix2 p ⟨q.val, h1⟩)
        else if h2 : 2048 ≤ q.val then y3 (ix2 p ⟨q.val - 2048, by have := q.isLt; omega⟩)
        else y2 (ix2 p ⟨q.val - 1024, by omega⟩) := by
  have hq := q.isLt
  by_cases h1 : q.val < 1024
  · rw [dif_pos h1]
    refine concatenate_apply_piece (t := S256x3072) (1 : Fin 2) [⟨S256x1024, y1⟩, ⟨S256x1024, y2⟩, ⟨S256x1024, y3⟩] concatenates_S256x1024_S256x1024_S256x1024_S256x3072_d1 (ix2 p q) 0 ?_ S256x1024 y1 rfl rfl 0 rfl (ix2 p ⟨q.val, h1⟩) ?_ ?_
    · show (0 : Nat) < 3; omega
    · intro b hb
      match b with
      | ⟨0, _⟩ => rfl
      | ⟨1, _⟩ => exact absurd rfl hb
    · show 0 + q.val = q.val
      omega
  · rw [dif_neg h1]
    by_cases h2 : 2048 ≤ q.val
    · rw [dif_pos h2]
      refine concatenate_apply_piece (t := S256x3072) (1 : Fin 2) [⟨S256x1024, y1⟩, ⟨S256x1024, y2⟩, ⟨S256x1024, y3⟩] concatenates_S256x1024_S256x1024_S256x1024_S256x3072_d1 (ix2 p q) 2 ?_ S256x1024 y3 rfl rfl 2048 rfl (ix2 p ⟨q.val - 2048, by omega⟩) ?_ ?_
      · show (2 : Nat) < 3; omega
      · intro b hb
        match b with
        | ⟨0, _⟩ => rfl
        | ⟨1, _⟩ => exact absurd rfl hb
      · show 2048 + (q.val - 2048) = q.val
        omega
    · rw [dif_neg h2]
      refine concatenate_apply_piece (t := S256x3072) (1 : Fin 2) [⟨S256x1024, y1⟩, ⟨S256x1024, y2⟩, ⟨S256x1024, y3⟩] concatenates_S256x1024_S256x1024_S256x1024_S256x3072_d1 (ix2 p q) 1 ?_ S256x1024 y2 rfl rfl 1024 rfl (ix2 p ⟨q.val - 1024, by omega⟩) ?_ ?_
      · show (1 : Nat) < 3; omega
      · intro b hb
        match b with
        | ⟨0, _⟩ => rfl
        | ⟨1, _⟩ => exact absurd rfl hb
      · show 1024 + (q.val - 1024) = q.val
        omega

/-- Entry `(p, q)` of the stored value is column `q` of the output row of row `p` of the input block. -/
theorem pay_apply (p : Fin 256) (q : Fin 3072) :
    k0_pay1 (F := Ideal) x0 w bias aq bq av bv (ix2 p q)
      = Cert.Spec.row (fun d => x0 (ix2 p d)) (fun d e => w (ix2 d e)) (fun e => bias (ix2 0 e))
          (fun d r => aq (ix2 d r)) (fun r e => bq (ix2 r e)) (fun d r => av (ix2 d r)) (fun r e => bv (ix2 r e)) q := by
  have hq := q.isLt
  rw [pay_eq, concat3_apply]
  by_cases h1 : q.val < 1024
  · rw [dif_pos h1, Cert.Spec.row_first _ _ _ _ _ _ _ _ h1, addf_apply, slice_apply 0 _ _ p ⟨q.val, h1⟩ (by show 0 + q.val < 3072; omega),
      dn_apply, lr_apply]
    congr 2
    exact Fin.ext (Nat.zero_add _)
  · rw [dif_neg h1]
    by_cases h2 : 2048 ≤ q.val
    · rw [dif_pos h2, Cert.Spec.row_last _ _ _ _ _ _ _ _ h2, addf_apply,
        slice_apply 2048 _ _ p ⟨q.val - 2048, by omega⟩ (by show 2048 + (q.val - 2048) < 3072; omega), dn_apply, lr_apply]
      congr 2
      exact Fin.ext (by show 2048 + (q.val - 2048) = q.val; omega)
    · rw [dif_neg h2, Cert.Spec.row_middle _ _ _ _ _ _ _ _ h1 h2,
        slice_apply 1024 _ _ p ⟨q.val - 1024, by omega⟩ (by show 1024 + (q.val - 1024) < 3072; omega), dn_apply]
      congr 1
      exact Fin.ext (by show 1024 + (q.val - 1024) = q.val; omega)

end Cert.KernelIdeal.KVal

end
-- ==== Proof.KernelArr.lean ====
/-
  The kernel's output array after the run, as one function of the arrays the region finds.

  The region runs 64 grid points. Point `t` reads rows `[256 t, 256 t + 256)` of the flattened input and the six weight
  arrays whole, and writes rows `[256 t, 256 t + 256)` of the output. By the body's value at an index, what point `t`
  writes is block `t` of ONE function of the arrays: row `r` of the output is the output row of row `r` of the input. The 64
  row blocks tile the output array, so after the run the array is that function.
-/
import proofs.«154420_j47656957116918_1_alg».proof.Proof.Gen.KernelIdeal.Frame
import proofs.«154420_j47656957116918_1_alg».proof.Proof.KernelPay
import Idealize.ShloMosaic.Lib.Pipeline.Value
import Idealize.ShloMosaic.Lib.StableHlo.Run
import Idealize.ShloMosaic.Lib.ValueIdx

set_option maxRecDepth 16384

noncomputable section

namespace Cert.KernelIdeal.KArr

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-! The seven arrays the region reads, as it finds them. -/
abbrev xA (c : Dev nD) : Vec Ideal S16384x1024 .f32 := V m c main_v0
abbrev wA (c : Dev nD) : Vec Ideal S1024x3072 .bf16 := V m c main_v2
abbrev bA (c : Dev nD) : Vec Ideal S1x3072 .f32 := V m c main_v3
abbrev aqA (c : Dev nD) : Vec Ideal S1024x16 .bf16 := V m c main_v5
abbrev bqA (c : Dev nD) : Vec Ideal S16x1024 .bf16 := V m c main_v7
abbrev avA (c : Dev nD) : Vec Ideal S1024x16 .bf16 := V m c main_v9
abbrev bvA (c : Dev nD) : Vec Ideal S16x1024 .bf16 := V m c main_v11

/-- The output array: row `i 0` of the input through the output-row function, at column `i 1`. -/
def Out2 (c : Dev nD) : Vec Ideal S16384x3072 .f32 := fun i =>
  Cert.Spec.row (fun d => xA m c (ix2 (i 0) d)) (fun d e => wA m c (ix2 d e)) (fun e => bA m c (ix2 0 e))
    (fun d r => aqA m c (ix2 d r)) (fun r e => bqA m c (ix2 r e)) (fun d r => avA m c (ix2 d r)) (fun r e => bvA m c (ix2 r e)) (i 1)

theorem hz : (![0, 0] : Fin 2 → Nat) = fun _ => 0 := funext fun a => by fin_cases a <;> rfl

/-- The printed index maps over the grid: the input block and the output block move down the rows with the point, and
    the six weight windows stay at block (0, 0). -/
theorem idx_rows : ∀ t : Fin cfg0.N, win0_0.index t (0 : Fin 2) = t.val ∧ win0_0.index t (1 : Fin 2) = 0
    ∧ win0_7.index t (0 : Fin 2) = t.val ∧ win0_7.index t (1 : Fin 2) = 0 :=
  (by decide +kernel : ∀ t : Fin grid0.N, _)
theorem idx_fixed : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `p` of the input block at point `t` is row `256 t + p` of the input array. -/
theorem blk_x (c : Dev nD) (t : Fin cfg0.N) (p : Fin 256) (d : Fin 1024) (ht : t.val * 256 + p.val < 16384) :
    iblk m c 0 t (ix2 p d) = xA m c (ix2 ⟨t.val * 256 + p.val, ht⟩ d) := by
  obtain ⟨e0, e1, -⟩ := idx_rows t
  show V m c main_v0 (((cfg0.win 0).blk t).view.emb (ix2 p d)) = V m c main_v0 (ix2 ⟨t.val * 256 + p.val, ht⟩ d)
  refine congrArg (V m c main_v0) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 1024 + 1 * d.val = d.val; rw [e1]; omega

/-! The arrays the region finds, from the arguments: the input flattened to rows, the bias as one row, each weight
    matrix transposed (the change of float format is the identity at the ideal values). -/

theorem xA_eq (c : Dev nD) : xA m c = shapeCast S16384x1024 (m ((c : Thread nD τ).loc main_arg0)) shapeCasts_S4x4096x1024_S16384x1024 := by
  show StableHlo.after hostOps0 (fun b => m (c, b)) (Proc.devRef .tc main_v0) = _
  after_results; rfl
theorem bA_eq (c : Dev nD) : bA m c = shapeCast S1x3072 (m ((c : Thread nD τ).loc main_arg2)) shapeCasts_S3072_S1x3072 := by
  show StableHlo.after hostOps0 (fun b => m (c, b)) (Proc.devRef .tc main_v3) = _
  after_results; rfl
theorem wA_eq (c : Dev nD) : wA m c = truncf (F := Ideal) .bf16 (transpose S1024x3072 [1, 0] (m ((c : Thread nD τ).loc main_arg1)) transposes_S3072x1024_S1024x3072_1_0) bitsLt_bf16_f32 := by
  show StableHlo.after hostOps0 (fun b => m (c, b)) (Proc.devRef .tc main_v2) = _
  after_results
theorem aqA_eq (c : Dev nD) : aqA m c = truncf (F := Ideal) .bf16 (transpose S1024x16 [1, 0] (m ((c : Thread nD τ).loc main_arg3)) transposes_S16x1024_S1024x16_1_0) bitsLt_bf16_f32 := by
  show StableHlo.after hostOps0 (fun b => m (c, b)) (Proc.devRef .tc main_v5) = _
  after_results
theorem bqA_eq (c : Dev nD) : bqA m c = truncf (F := Ideal) .bf16 (transpose S16x1024 [1, 0] (m ((c : Thread nD τ).loc main_arg4)) transposes_S1024x16_S16x1024_1_0) bitsLt_bf16_f32 := by
  show StableHlo.after hostOps0 (fun b => m (c, b)) (Proc.devRef .tc main_v7) = _
  after_results
theorem avA_eq (c : Dev nD) : avA m c = truncf (F := Ideal) .bf16 (transpose S1024x16 [1, 0] (m ((c : Thread nD τ).loc main_arg5)) transposes_S16x1024_S1024x16_1_0) bitsLt_bf16_f32 := by
  show StableHlo.after hostOps0 (fun b => m (c, b)) (Proc.devRef .tc main_v9) = _
  after_results
theorem bvA_eq (c : Dev nD) : bvA m c = truncf (F := Ideal) .bf16 (transpose S16x1024 [1, 0] (m ((c : Thread nD τ).loc main_arg6)) transposes_S1024x16_S16x1024_1_0) bitsLt_bf16_f32 := by
  show StableHlo.after hostOps0 (fun b => m (c, b)) (Proc.devRef .tc main_v11) = _
  after_results

/-- The six weight windows' blocks are their whole arrays. -/
theorem blk_w (c : Dev nD) (t : Fin cfg0.N) (d : Fin 1024) (e : Fin 3072) : iblk m c 1 t (ix2 d e) = wA m c (ix2 d e) := by
  obtain ⟨e0, e1, -⟩ := idx_fixed t
  show V m c main_v2 (((cfg0.win 1).blk t).view.emb (ix2 d e)) = V m c main_v2 (ix2 d e)
  refine congrArg (V m c main_v2) (funext fun a => Fin.ext ?_)
  match a with
  | ⟨0, _⟩ => show win0_1.index t (0 : Fin 2) * 1024 + 1 * d.val = d.val; rw [e0]; omega
  | ⟨1, _⟩ => show win0_1.index t (1 : Fin 2) * 3072 + 1 * e.val = e.val; rw [e1]; omega
theorem blk_b (c : Dev nD) (t : Fin cfg0.N) (z : Fin 1) (e : Fin 3072) : iblk m c 2 t (ix2 z e) = bA m c (ix2 z e) := by
  obtain ⟨-, -, e0, e1, -⟩ := idx_fixed t
  show V m c main_v3 (((cfg0.win 2).blk t).view.emb (ix2 z e)) = V m c main_v3 (ix2 z e)
  refine congrArg (V m c main_v3) (funext fun a => Fin.ext ?_)
  match a with
  | ⟨0, _⟩ => show win0_2.index t (0 : Fin 2) * 1 + 1 * z.val = z.val; rw [e0]; omega
  | ⟨1, _⟩ => show win0_2.index t (1 : Fin 2) * 3072 + 1 * e.val = e.val; rw [e1]; omega
theorem blk_aq (c : Dev nD) (t : Fin cfg0.N) (d : Fin 1024) (r : Fin 16) : iblk m c 3 t (ix2 d r) = aqA m c (ix2 d r) := by
  obtain ⟨-, -, -, -, e0, e1, -⟩ := idx_fixed t
  show V m c main_v5 (((cfg0.win 3).blk t).view.emb (ix2 d r)) = V m c main_v5 (ix2 d r)
  refine congrArg (V m c main_v5) (funext fun a => Fin.ext ?_)
  match a with
  | ⟨0, _⟩ => show win0_3.index t (0 : Fin 2) * 1024 + 1 * d.val = d.val; rw [e0]; omega
  | ⟨1, _⟩ => show win0_3.index t (1 : Fin 2) * 16 + 1 * r.val = r.val; rw [e1]; omega
theorem blk_bq (c : Dev nD) (t : Fin cfg0.N) (r : Fin 16) (e : Fin 1024) : iblk m c 4 t (ix2 r e) = bqA m c (ix2 r e) := by
  obtain ⟨-, -, -, -, -, -, e0, e1, -⟩ := idx_fixed t
  show V m c main_v7 (((cfg0.win 4).blk t).view.emb (ix2 r e)) = V m c main_v7 (ix2 r e)
  refine congrArg (V m c main_v7) (funext fun a => Fin.ext ?_)
  match a with
  | ⟨0, _⟩ => show win0_4.index t (0 : Fin 2) * 16 + 1 * r.val = r.val; rw [e0]; omega
  | ⟨1, _⟩ => show win0_4.index t (1 : Fin 2) * 1024 + 1 * e.val = e.val; rw [e1]; omega
theorem blk_av (c : Dev nD) (t : Fin cfg0.N) (d : Fin 1024) (r : Fin 16) : iblk m c 5 t (ix2 d r) = avA m c (ix2 d r) := by
  obtain ⟨-, -, -, -, -, -, -, -, e0, e1, -⟩ := idx_fixed t
  show V m c main_v9 (((cfg0.win 5).blk t).view.emb (ix2 d r)) = V m c main_v9 (ix2 d r)
  refine congrArg (V m c main_v9) (funext fun a => Fin.ext ?_)
  match a with
  | ⟨0, _⟩ => show win0_5.index t (0 : Fin 2) * 1024 + 1 * d.val = d.val; rw [e0]; omega
  | ⟨1, _⟩ => show win0_5.index t (1 : Fin 2) * 16 + 1 * r.val = r.val; rw [e1]; omega
theorem blk_bv (c : Dev nD) (t : Fin cfg0.N) (r : Fin 16) (e : Fin 1024) : iblk m c 6 t (ix2 r e) = bvA m c (ix2 r e) := by
  obtain ⟨-, -, -, -, -, -, -, -, -, -, e0, e1⟩ := idx_fixed t
  show V m c main_v11 (((cfg0.win 6).blk t).view.emb (ix2 r e)) = V m c main_v11 (ix2 r e)
  refine congrArg (V m c main_v11) (funext fun a => Fin.ext ?_)
  match a with
  | ⟨0, _⟩ => show win0_6.index t (0 : Fin 2) * 16 + 1 * r.val = r.val; rw [e0]; omega
  | ⟨1, _⟩ => show win0_6.index t (1 : Fin 2) * 1024 + 1 * e.val = e.val; rw [e1]; omega

/-- Entry `(p, q)` of the output block at point `t` is entry `(256 t + p, q)` of the output array. -/
theorem emb_out (t : Fin cfg0.N) (p : Fin 256) (q : Fin 3072) (ht : t.val * 256 + p.val < 16384) :
    ((cfg0.win 7).blk t).view.emb (ix2 p q) = (ix2 ⟨t.val * 256 + p.val, ht⟩ q : S16384x3072.Idx) := by
  obtain ⟨-, -, e0, e1⟩ := idx_rows t
  refine funext fun a => Fin.ext ?_
  match a with
  | ⟨0, _⟩ => show win0_7.index t (0 : Fin 2) * 256 + 1 * p.val = t.val * 256 + p.val; rw [e0]; omega
  | ⟨1, _⟩ => show win0_7.index t (1 : Fin 2) * 3072 + 1 * q.val = q.val; rw [e1]; omega

/-- What point `t` writes back is block `t` of `Out2`. -/
theorem flushed_eq (c : Dev nD) (t : Fin cfg0.N) :
    (dats m 0 c).flushed 7 t = ((cfg0.win 7).blk t).view.read (Elt Ideal) (Out2 m c) := by
  show (cfg0.win 7).cut (grid0.coords t) ((dats m 0 c).after 7 t) = _
  rw [after0_7]
  unfold out0_7
  rw [View.canon_unit_zero hz]
  simp only [View.ld_unit_zero (S := S256x1024) hz, View.ld_unit_zero (S := S1024x3072) hz, View.ld_unit_zero (S := S1x3072) hz,
    View.ld_unit_zero (S := S1024x16) hz, View.ld_unit_zero (S := S16x1024) hz]
  have hN : cfg0.N = 64 := N_0
  have htl := t.isLt
  funext y
  obtain ⟨p, q, rfl⟩ : ∃ (p : Fin 256) (q : Fin 3072), y = ix2 p q := ⟨y 0, y 1, eq_ix2 y⟩
  have ht : t.val * 256 + p.val < 16384 := by have := p.isLt; omega
  show k0_pay1 (F := Ideal) (iblk m c 0 t) (iblk m c 1 t) (iblk m c 2 t) (iblk m c 3 t) (iblk m c 4 t) (iblk m c 5 t) (iblk m c 6 t) (ix2 p q)
    = Out2 m c (((cfg0.win 7).blk t).view.emb (ix2 p q))
  rw [emb_out t p q ht]
  refine (KVal.pay_apply _ _ _ _ _ _ _ p q).trans ?_
  unfold Out2
  have e0 : (fun d => iblk m c 0 t (ix2 p d)) = fun d => xA m c (ix2 ⟨t.val * 256 + p.val, ht⟩ d) := funext fun d => blk_x m c t p d ht
  have e1 : (fun d e => iblk m c 1 t (ix2 d e)) = fun d e => wA m c (ix2 d e) := funext fun d => funext fun e => blk_w m c t d e
  have e2 : (fun e => iblk m c 2 t (ix2 0 e)) = fun e => bA m c (ix2 0 e) := funext fun e => blk_b m c t 0 e
  have e3 : (fun d r => iblk m c 3 t (ix2 d r)) = fun d r => aqA m c (ix2 d r) := funext fun d => funext fun r => blk_aq m c t d r
  have e4 : (fun r e => iblk m c 4 t (ix2 r e)) = fun r e => bqA m c (ix2 r e) := funext fun r => funext fun e => blk_bq m c t r e
  have e5 : (fun d r => iblk m c 5 t (ix2 d r)) = fun d r => avA m c (ix2 d r) := funext fun d => funext fun r => blk_av m c t d r
  have e6 : (fun r e => iblk m c 6 t (ix2 r e)) = fun r e => bvA m c (ix2 r e) := funext fun r => funext fun e => blk_bv m c t r e
  rw [e0, e1, e2, e3, e4, e5, e6]

/-- An index of the output array is in point `t`'s block iff each coordinate is in the block's range on its axis. -/
theorem mem_blk (t : Fin cfg0.N) (i : S16384x3072.Idx) :
    i ∈ ((cfg0.win 7).blk t).view.set ↔ ∀ a : Fin 2, win0_7.index t a * S256x3072.size a ≤ (i a).val ∧ (i a).val < win0_7.index t a * S256x3072.size a + S256x3072.size a := by
  show i ∈ ((View.whole main_v12).slice (win0_7.rect t)).set ↔ _
  rw [View.set_slice_whole, Rect.mem_set_unit]
  exact Iff.rfl

/-- The 64 blocks of 256 rows tile the output array: row `r` is in the block of point `r / 256`. -/
theorem cover (i : S16384x3072.Idx) : ∃ t : Fin cfg0.N, (cfg0.win 7).flush t = true ∧ i ∈ ((cfg0.win 7).blk t).view.set := by
  have hN : cfg0.N = 64 := N_0
  have h0 : (i 0).val < 16384 := (i 0).isLt
  have h1 : (i 1).val < 3072 := (i 1).isLt
  have hlt : (i 0).val / 256 < cfg0.N := by rw [hN]; omega
  obtain ⟨-, -, e0, e1⟩ := idx_rows ⟨(i 0).val / 256, hlt⟩
  refine ⟨⟨(i 0).val / 256, hlt⟩, flush0_7 _, ?_⟩
  rw [mem_blk]
  intro a
  match a with
  | ⟨0, _⟩ =>
    show win0_7.index ⟨(i 0).val / 256, hlt⟩ (0 : Fin 2) * 256 ≤ (i 0).val ∧ (i 0).val < win0_7.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, hlt⟩ (1 : Fin 2) * 3072 ≤ (i 1).val ∧ (i 1).val < win0_7.index ⟨(i 0).val / 256, hlt⟩ (1 : Fin 2) * 3072 + 3072
    rw [e1]; omega

/-- The output array after the run. -/
theorem final (c : Dev nD) : (dats m 0 c).arrAt 7 cfg0.N = Out2 m c :=
  (dats m 0 c).arrAt_eq_of_cover 7 (Out2 m c) (fun t _ => flushed_eq m c t) cover

end Cert.KernelIdeal.KArr

end
-- ==== Proof.KernelRun.lean ====
/-
  The kernel's run at the ideal values: its result is `Cert.Spec.G` of its arguments.

  Before the region the program flattens the input `[4, 4096, 1024]` to `[16384, 1024]` rows, turns the bias into one row
  and transposes each weight matrix; after it the output `[16384, 3072]` is reshaped to `[4, 4096, 3072]`. Read at an
  index these are re-indexings: row `4096 b + s` of the flattened input is `x[b, s, :]`, entry `(d, e)` of a transposed
  matrix is entry `(e, d)`, and entry `(b, s, e)` of the result is entry `(4096 b + s, e)` of the region's output.
-/
import proofs.«154420_j47656957116918_1_alg».proof.Proof.KernelArr

set_option maxRecDepth 16384

noncomputable section

namespace Cert.KernelIdeal.KRun

open Cert.KernelIdeal Cert.KernelIdeal.Gen Cert.KernelIdeal.KArr Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-- The flattened input at row `4096 b + s`. -/
theorem x_apply (c : Dev nD) (b : Fin 4) (s : Fin 4096) (d : Fin 1024) (h : b.val * 4096 + s.val < 16384) :
    xA m c (ix2 ⟨b.val * 4096 + s.val, h⟩ d) = (m ((c : Thread nD τ).loc main_arg0) : S4x4096x1024.Idx → EReal) (ix3 b s d) := by
  rw [xA_eq]
  refine shapeCast_apply (s := S4x4096x1024) (t := S16384x1024) _ shapeCasts_S4x4096x1024_S16384x1024 _ (ix3 b s d) ?_
  rw [Shape.rowMajor_val_three, Shape.rowMajor_val_two]
  rfl

/-- The bias row. -/
theorem b_apply (c : Dev nD) (e : Fin 3072) :
    bA m c (ix2 0 e) = (m ((c : Thread nD τ).loc main_arg2) : S3072.Idx → EReal) (ix1 e) := by
  rw [bA_eq]
  refine shapeCast_apply (s := S3072) (t := S1x3072) _ shapeCasts_S3072_S1x3072 _ (ix1 e) ?_
  rw [Shape.rowMajor_val_one, Shape.rowMajor_val_two]
  show e.val = 0 * 3072 + e.val
  omega

/-- The transposed weights. -/
theorem w_apply (c : Dev nD) (d : Fin 1024) (e : Fin 3072) :
    wA m c (ix2 d e) = (m ((c : Thread nD τ).loc main_arg1) : S3072x1024.Idx → EReal) (ix2 e d) := by
  rw [wA_eq]
  exact transpose_apply [1, 0] _ transposes_S3072x1024_S1024x3072_1_0 (ix2 d e) (ix2 e d) (fun b => by
    match b with
    | ⟨0, _⟩ => rfl
    | ⟨1, _⟩ => rfl)
theorem aq_apply (c : Dev nD) (d : Fin 1024) (r : Fin 16) :
    aqA m c (ix2 d r) = (m ((c : Thread nD τ).loc main_arg3) : S16x1024.Idx → EReal) (ix2 r d) := by
  rw [aqA_eq]
  exact transpose_apply [1, 0] _ transposes_S16x1024_S1024x16_1_0 (ix2 d r) (ix2 r d) (fun b => by
    match b with
    | ⟨0, _⟩ => rfl
    | ⟨1, _⟩ => rfl)
theorem bq_apply (c : Dev nD) (r : Fin 16) (e : Fin 1024) :
    bqA m c (ix2 r e) = (m ((c : Thread nD τ).loc main_arg4) : S1024x16.Idx → EReal) (ix2 e r) := by
  rw [bqA_eq]
  exact transpose_apply [1, 0] _ transposes_S1024x16_S16x1024_1_0 (ix2 r e) (ix2 e r) (fun b => by
    match b with
    | ⟨0, _⟩ => rfl
    | ⟨1, _⟩ => rfl)
theorem av_apply (c : Dev nD) (d : Fin 1024) (r : Fin 16) :
    avA m c (ix2 d r) = (m ((c : Thread nD τ).loc main_arg5) : S16x1024.Idx → EReal) (ix2 r d) := by
  rw [avA_eq]
  exact transpose_apply [1, 0] _ transposes_S16x1024_S1024x16_1_0 (ix2 d r) (ix2 r d) (fun b => by
    match b with
    | ⟨0, _⟩ => rfl
    | ⟨1, _⟩ => rfl)
theorem bv_apply (c : Dev nD) (r : Fin 16) (e : Fin 1024) :
    bvA m c (ix2 r e) = (m ((c : Thread nD τ).loc main_arg6) : S1024x16.Idx → EReal) (ix2 e r) := by
  rw [bvA_eq]
  exact transpose_apply [1, 0] _ transposes_S1024x16_S16x1024_1_0 (ix2 r e) (ix2 e r) (fun b => by
    match b with
    | ⟨0, _⟩ => rfl
    | ⟨1, _⟩ => rfl)

/-- The region's output, reshaped, is `Cert.Spec.G` of the arguments. -/
theorem out_eq (c : Dev nD) :
    shapeCast S4x4096x3072 (Out2 m c) shapeCasts_S16384x3072_S4x4096x3072
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext i
  obtain ⟨b, s, e, rfl⟩ : ∃ (b : Fin 4) (s : Fin 4096) (e : Fin 3072), i = ix3 b s e := ⟨i 0, i 1, i 2, eq_ix3 i⟩
  have hb := b.isLt
  have hs := s.isLt
  have h : b.val * 4096 + s.val < 16384 := by omega
  refine (shapeCast_apply (Out2 m c) _ (ix3 b s e) (ix2 ⟨b.val * 4096 + s.val, h⟩ e) ?_).trans ?_
  · rw [Shape.rowMajor_val_three, Shape.rowMajor_val_two]
    rfl
  · show Cert.Spec.row (fun d => xA m c (ix2 ⟨b.val * 4096 + s.val, h⟩ d)) (fun d e => wA m c (ix2 d e)) (fun e => bA m c (ix2 0 e))
        (fun d r => aqA m c (ix2 d r)) (fun r e => bqA m c (ix2 r e)) (fun d r => avA m c (ix2 d r)) (fun r e => bvA m c (ix2 r e)) e
      = Cert.Spec.row (fun d => (m ((c : Thread nD τ).loc main_arg0) : S4x4096x1024.Idx → EReal) (ix3 b s d))
        (fun d e => (m ((c : Thread nD τ).loc main_arg1) : S3072x1024.Idx → EReal) (ix2 e d))
        (fun e => (m ((c : Thread nD τ).loc main_arg2) : S3072.Idx → EReal) (ix1 e))
        (fun d r => (m ((c : Thread nD τ).loc main_arg3) : S16x1024.Idx → EReal) (ix2 r d))
        (fun r e => (m ((c : Thread nD τ).loc main_arg4) : S1024x16.Idx → EReal) (ix2 e r))
        (fun d r => (m ((c : Thread nD τ).loc main_arg5) : S16x1024.Idx → EReal) (ix2 r d))
        (fun r e => (m ((c : Thread nD τ).loc main_arg6) : S1024x16.Idx → EReal) (ix2 e r)) e
    have e0 : (fun d => xA m c (ix2 ⟨b.val * 4096 + s.val, h⟩ d))
        = fun d => (m ((c : Thread nD τ).loc main_arg0) : S4x4096x1024.Idx → EReal) (ix3 b s d) := funext fun d => x_apply m c b s d h
    have e1 : (fun d e => wA m c (ix2 d e)) = fun d e => (m ((c : Thread nD τ).loc main_arg1) : S3072x1024.Idx → EReal) (ix2 e d) :=
      funext fun d => funext fun e => w_apply m c d e
    have e2 : (fun e => bA m c (ix2 0 e)) = fun e => (m ((c : Thread nD τ).loc main_arg2) : S3072.Idx → EReal) (ix1 e) :=
      funext fun e => b_apply m c e
    have e3 : (fun d r => aqA m c (ix2 d r)) = fun d r => (m ((c : Thread nD τ).loc main_arg3) : S16x1024.Idx → EReal) (ix2 r d) :=
      funext fun d => funext fun r => aq_apply m c d r
    have e4 : (fun r e => bqA m c (ix2 r e)) = fun r e => (m ((c : Thread nD τ).loc main_arg4) : S1024x16.Idx → EReal) (ix2 e r) :=
      funext fun r => funext fun e => bq_apply m c r e
    have e5 : (fun d r => avA m c (ix2 d r)) = fun d r => (m ((c : Thread nD τ).loc main_arg5) : S16x1024.Idx → EReal) (ix2 r d) :=
      funext fun d => funext fun r => av_apply m c d r
    have e6 : (fun r e => bvA m c (ix2 r e)) = fun r e => (m ((c : Thread nD τ).loc main_arg6) : S1024x16.Idx → EReal) (ix2 e r) :=
      funext fun r => funext fun e => bv_apply m c r e
    rw [e0, e1, e2, e3, e4, e5, e6]

/-- What the program leaves in its result buffer: the reshape of the region's output array. -/
theorem tail_eq (c : Dev nD) :
    Pipeline.afterTail₀ cfgs (dats m) 0 (V0 m) [hostOps1] c main_v13
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  show StableHlo.after hostOps1 _ (Proc.devRef .tc main_v13) = _
  after_results
  refine Eq.trans ?_ (out_eq m c)
  have hw : Pipeline.withArrays (cfgs 0).spec c (V0 m c) (fun w => (dats m 0 c).arrAt w (cfgs 0).N) (Proc.devRef .tc main_v12) = Out2 m c :=
    (Pipeline.withArrays_arr spec0 launch0.win.arr_inj c _ _ 7).trans (final m c)
  rw [← hw]
  rfl

/-- The kernel's run: every weakly fair execution terminates with the result buffer at `Cert.Spec.G` of the arguments
    and the arguments unchanged. -/
theorem run : θ_run defs (onTc (τ := τ) (main (F := Ideal))) ⟨m, fun _ => 0, ρ⟩ (fun r => ∀ c : Dev nD,
      r.2.mem ((c.tc : Thread nD τ).loc main_v13)
        = Cert.Spec.G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KRun

end
-- ==== Proof.lean ====
/-
  A dense projection with two low-rank corrections: the Pallas kernel against the jnp reference, over the extended reals.

  Both programs compute, for every input row `x[b, s, :]` (length 1024), the output row (length 3072)
    `out[e] = (∑ d, x[d] · W[e, d]) + B[e]`,
  plus `∑ r, (∑ d, x[d] · Aq[r, d]) · Bq[e, r]` on the first 1024 columns and
  `∑ r, (∑ d, x[d] · Av[r, d]) · Bv[e - 2048, r]` on the last 1024 (`Cert.Spec.row`, `Cert.Spec.G`).
  The kernel flattens the input to 16384 rows, transposes the weights on the host, and at each of 64 grid points multiplies a
  block of 256 rows by the whole weight matrices, adding the corrections into two column slices and concatenating; the
  reference contracts the un-transposed arrays directly and adds the corrections by two row updates. At the ideal values a
  change of float format is the identity and a matrix product is the sum over the contracted coordinate, so both results
  are `Cert.Spec.G` of the arguments, sum for sum and product for product: no law of the extended reals beyond the
  re-indexing of sums is used, and the precondition (finite inputs) is not needed for the value claim.

  The three frames are the generated ones (the reference's is its generated run with the result dropped); the ideal pass
  rewrote nothing, so `preserves` is trivial.
-/
import proofs.«154420_j47656957116918_1_alg».proof.Defs
import proofs.«154420_j47656957116918_1_alg».proof.Proof.Gen.Kernel
import proofs.«154420_j47656957116918_1_alg».proof.Proof.Gen.Kernel.Skeleton
import proofs.«154420_j47656957116918_1_alg».proof.Proof.Gen.Kernel.Launch
import proofs.«154420_j47656957116918_1_alg».proof.Proof.Gen.Kernel.Points
import proofs.«154420_j47656957116918_1_alg».proof.Proof.Gen.Kernel.Frame
import proofs.«154420_j47656957116918_1_alg».proof.Proof.Gen.KernelIdeal
import proofs.«154420_j47656957116918_1_alg».proof.Proof.Gen.KernelIdeal.Skeleton
import proofs.«154420_j47656957116918_1_alg».proof.Proof.Gen.KernelIdeal.Launch
import proofs.«154420_j47656957116918_1_alg».proof.Proof.Gen.KernelIdeal.Points
import proofs.«154420_j47656957116918_1_alg».proof.Proof.Gen.KernelIdeal.Frame
import proofs.«154420_j47656957116918_1_alg».proof.Proof.Gen.ReferenceIdeal
import proofs.«154420_j47656957116918_1_alg».proof.Proof.Gen.ReferenceIdeal.Run
import proofs.«154420_j47656957116918_1_alg».proof.Proof.Gen.ReferenceIdeal.Read
import proofs.«154420_j47656957116918_1_alg».proof.Proof.Gen.Pre_finite_inputs
import proofs.«154420_j47656957116918_1_alg».proof.Proof.RefValue
import proofs.«154420_j47656957116918_1_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the result `Cert.Spec.G` of the arguments. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
